-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S1600000x5 : Shape := ⟨2, ![1600000, 5]⟩
abbrev S1600000 : Shape := ⟨1, ![1600000]⟩
abbrev S4x64 : Shape := ⟨2, ![4, 64]⟩
abbrev S64 : Shape := ⟨1, ![64]⟩
abbrev S64x64 : Shape := ⟨2, ![64, 64]⟩
abbrev S133x64 : Shape := ⟨2, ![133, 64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S1600000x5 : S_.BroadcastsInDim S1600000x5 (![] : Fin 0 → Fin S1600000x5.rank)
  reducesTo_S1600000x5_S_d0_1 : S1600000x5.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S133x64 : S_.BroadcastsInDim S133x64 (![] : Fin 0 → Fin S133x64.rank)
  reducesTo_S133x64_S_d0_1 : S133x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S133x64 .f32) (main_arg17 : FVec F S64 .f32) (main_arg18 : FVec F S64x1 .f32) (main_arg19 : FVec F S1 .f32) (main_v63 : IVec S_ 1) (main_v67 : IVec S_ 1) : IVec S_ 1 :=
  let main_v68 : IVec S_ 1 := andi main_v63 main_v67
  let main_v69 : FVec F S133x64 .f32 := Host.absf main_arg16
  let main_cst_26 : FVec F S_ .f32 := constant S_ .f32 0x7F800000#32
  let main_v70 : FVec F S133x64 .f32 := broadcastInDim S133x64 ![] bcast_S_S133x64 main_cst_26
  let main_v71 : IVec S133x64 1 := cmpf .olt main_v69 main_v70
  let main_c_27 : IVec S_ 1 := constantI S_ 1 1#1
  let main_v72 : IVec S_ 1 := (fun x v => Host.reduce IntOp.andi x v reducesTo_S133x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg18
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S64 .f32) (main_arg14 : FVec F S64x1 .f32) (main_arg15 : FVec F S1 .f32) (main_arg16 : FVec F S133x64 .f32) (main_arg17 : FVec F S64 .f32) (main_arg18 : FVec F S64x1 .f32) (main_arg19 : FVec F S1 .f32) (main_v48 : IVec S_ 1) (main_v49 : FVec F S133x64 .f32) (main_v50 : FVec F S133x64 .f32) : IVec S_ 1 :=
  let main_v51 : IVec S133x64 1 := cmpf .olt main_v49 main_v50
  let main_c_19 : IVec S_ 1 := constantI S_ 1 1#1
  let main_v52 : IVec S_ 1 := (fun x v => Host.reduce IntOp.andi x v reducesTo_S133x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg16 main_arg17 main_arg18 main_arg19 main_v63 main_v67

def fn_part2 {F : FTy → Type} [FloatOps F] (main_arg9 : FVec F S64 .f32) (main_arg10 : FVec F S64x64 .f32) (main_arg11 : FVec F S64 .f32) (main_arg12 : FVec F S133x64 .f32) (main_arg13 : FVec F S64 .f32) (main_arg14 : FVec F S64x1 .f32) (main_arg15 : FVec F S1 .f32) (main_arg16 : FVec F S133x64 .f32) (main_arg17 : FVec F S64 .f32) (main_arg18 : FVec F S64x1 .f32) (main_arg19 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S133x64 .f32 := Host.absf main_arg12
  let main_cst_18 : FVec F S_ .f32 := constant S_ .f32 0x7F800000#32
  let main_v50 : FVec F S133x64 .f32 := broadcastInDim S133x64 ![] bcast_S_S133x64 main_cst_18
  fn_part3 (F := F) main_arg13 main_arg14 main_arg15 main_arg16 main_arg17 main_arg18 main_arg19 main_v48 main_v49 main_v50

def fn_part1 {F : FTy → Type} [FloatOps F] (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S133x64 .f32) (main_arg13 : FVec F S64 .f32) (main_arg14 : FVec F S64x1 .f32) (main_arg15 : FVec F S1 .f32) (main_arg16 : FVec F S133x64 .f32) (main_arg17 : FVec F S64 .f32) (main_arg18 : FVec F S64x1 .f32) (main_arg19 : FVec F S1 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x4 .f32) (main_arg1 : FVec F S1600000x5 .f32) (main_arg2 : IVec S1600000 32) (main_arg3 : IVec S1600000 32) (main_arg4 : FVec F S4x64 .f32) (main_arg5 : FVec F S4x64 .f32) (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S133x64 .f32) (main_arg13 : FVec F S64 .f32) (main_arg14 : FVec F S64x1 .f32) (main_arg15 : FVec F S1 .f32) (main_arg16 : FVec F S133x64 .f32) (main_arg17 : FVec F S64 .f32) (main_arg18 : FVec F S64x1 .f32) (main_arg19 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S1600000x5 .f32 := Host.absf main_arg1
  let main_cst_0 : FVec F S_ .f32 := constant S_ .f32 0x7F800000#32
  let main_v5 : FVec F S1600000x5 .f32 := broadcastInDim S1600000x5 ![] bcast_S_S1600000x5 main_cst_0
  let main_v6 : IVec S1600000x5 1 := cmpf .olt main_v4 main_v5
  let main_c_1 : IVec S_ 1 := constantI S_ 1 1#1
  let main_v7 : IVec S_ 1 := (fun x v => Host.reduce IntOp.andi x v reducesTo_S1600000x5_S_d0_1 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x4 : Shape := ⟨2, ![100000, 4]⟩
abbrev S1600000x5 : Shape := ⟨2, ![1600000, 5]⟩
abbrev S1600000 : Shape := ⟨1, ![1600000]⟩
abbrev S4x64 : Shape := ⟨2, ![4, 64]⟩
abbrev S64 : Shape := ⟨1, ![64]⟩
abbrev S64x64 : Shape := ⟨2, ![64, 64]⟩
abbrev S133x64 : Shape := ⟨2, ![133, 64]⟩
abbrev S64x1 : Shape := ⟨2, ![64, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S2000x64 : Shape := ⟨2, ![2000, 64]⟩
abbrev S2000x5 : Shape := ⟨2, ![2000, 5]⟩
abbrev S2000x1 : Shape := ⟨2, ![2000, 1]⟩
abbrev S2000x133 : Shape := ⟨2, ![2000, 133]⟩
abbrev S1x1 : Shape := ⟨2, ![1, 1]⟩

abbrev nBuf : Space → Nat
  | .hbm => 105
  | .vmem => 18
  | .smem => 0
  | _ => 0

abbrev bufTy : (tb : Table) → Fin (tcTables nBuf tb) → BufTy
  | .hbm, ⟨0, _⟩ => ⟨S100000x4, .f32⟩
  | .hbm, ⟨1, _⟩ => ⟨S1600000x5, .f32⟩
  | .hbm, ⟨2, _⟩ => ⟨S1600000, .i32⟩
  | .hbm, ⟨3, _⟩ => ⟨S1600000, .i32⟩
  | .hbm, ⟨4, _⟩ => ⟨S4x64, .f32⟩
  | .hbm, ⟨5, _⟩ => ⟨S4x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S133x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S133x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x64, .f32⟩
  | .hbm, ⟨99, _⟩ => ⟨S64x64, .bf16⟩
  | .hbm, ⟨100, _⟩ => ⟨S133x64, .bf16⟩
  | .hbm, ⟨101, _⟩ => ⟨S64x1, .bf16⟩
  | .hbm, ⟨102, _⟩ => ⟨S133x64, .bf16⟩
  | .hbm, ⟨103, _⟩ => ⟨S64x1, .bf16⟩
  | .hbm, ⟨104, _⟩ => ⟨S1600000x1, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x5, .f32⟩
  | .local _ .vmem, ⟨5, _⟩ => ⟨S2000x5, .f32⟩
  | .local _ .vmem, ⟨6, _⟩ => ⟨S64x64, .bf16⟩
  | .local _ .vmem, ⟨7, _⟩ => ⟨S64, .f32⟩
  | .local _ .vmem, ⟨8, _⟩ => ⟨S133x64, .bf16⟩
  | .local _ .vmem, ⟨9, _⟩ => ⟨S64, .f32⟩
  | .local _ .vmem, ⟨10, _⟩ => ⟨S64x1, .bf16⟩
  | .local _ .vmem, ⟨11, _⟩ => ⟨S1, .f32⟩
  | .local _ .vmem, ⟨12, _⟩ => ⟨S133x64, .bf16⟩
  | .local _ .vmem, ⟨13, _⟩ => ⟨S64, .f32⟩
  | .local _ .vmem, ⟨14, _⟩ => ⟨S64x1, .bf16⟩
  | .local _ .vmem, ⟨15, _⟩ => ⟨S1, .f32⟩
  | .local _ .vmem, ⟨16, _⟩ => ⟨S2000x1, .f32⟩
  | .local _ .vmem, ⟨17, _⟩ => ⟨S2000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call0_cst : Ref sig .tc := ⟨.hbm, 54, rfl⟩
abbrev main_call0_v0 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_cst : Ref sig .tc := ⟨.hbm, 78, rfl⟩
abbrev main_call1_v0 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_10 : Ref sig .tc := ⟨.hbm, 90, rfl⟩
abbrev main_v54 : Ref sig .tc := ⟨.hbm, 91, rfl⟩
abbrev main_v55 : Ref sig .tc := ⟨.hbm, 92, rfl⟩
abbrev main_c_11 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S133x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S133x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x5_S2000x5_0_0 : ∀ a, (![0, 0] : Fin 2 → Nat) a + S2000x5.size a ≤ S2000x5.size a
  h_S2000x5 : 0 < S2000x5.numel
  concatenates_S2000x64_S2000x64_S2000x5_S2000x133_d1 : Shape.Concatenates [S2000x64, S2000x64, S2000x5] S2000x133 1
  inb_S133x64_S133x64_0_0 : ∀ a, (![0, 0] : Fin 2 → Nat) a + S133x64.size a ≤ S133x64.size a
  h_S133x64 : 0 < S133x64.numel
  shapeCasts_S133x64_S133x64 : S133x64.ShapeCasts S133x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  broadcasts_S2000x1_S2000x133 : S2000x1.Broadcasts S2000x133
  inb_S2000x1_S2000x1_0_0 : ∀ a, (![0, 0] : Fin 2 → Nat) a + S2000x1.size a ≤ S2000x1.size a
  h_S2000x1 : 0 < S2000x1.numel
  scatter_S100000_S1600000x1_S1600000_n_0_0_1_wf : ScatterDims.WF S100000 S1600000x1 S1600000 [] [0] [0] 1
  dot_S100000x4_S4x64_S100000x64_1_0_0_1_n_n_wf : DotDims.WF S100000x4 S4x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S2000x64_S64x64_S2000x64_1_0_0_1_n_n_wf : DotDims.WF S2000x64 S64x64 S2000x64 [1] [0] [0] [1] [] []
  dot_S2000x133_S133x64_S2000x64_1_0_0_1_n_n_wf : DotDims.WF S2000x133 S133x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S1600000x64.size a
  hwx0_0 : ∀ i : grid0.Coords, EltTy.bits .f32 = 32 ∨ (Rect.block (s := S1600000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S1600000x64.size a
  hwx0_1 : ∀ i : grid0.Coords, EltTy.bits .f32 = 32 ∨ (Rect.block (s := S1600000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x5.size a ≤ S1600000x5.size a
  hwx0_2 : ∀ i : grid0.Coords, EltTy.bits .f32 = 32 ∨ (Rect.block (s := S1600000x5) S2000x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S133x64.size a ≤ S133x64.size a
  hwx0_5 : ∀ i : grid0.Coords, EltTy.bits .bf16 = 32 ∨ (Rect.block (s := S133x64) S133x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .bf16 = 32 ∨ (Rect.block (s := S64x1) S64x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S133x64.size a ≤ S133x64.size a
  hwx0_9 : ∀ i : grid0.Coords, EltTy.bits .bf16 = 32 ∨ (Rect.block (s := S133x64) S133x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S64x1.size a
  hwx0_11 : ∀ i : grid0.Coords, EltTy.bits .bf16 = 32 ∨ (Rect.block (s := S64x1) S64x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x1.size a ≤ S1600000x1.size a
  hwx0_13 : ∀ i : grid0.Coords, EltTy.bits .f32 = 32 ∨ (Rect.block (s := S1600000x1) S2000x1.size (cc0_transform_13 i) (hinb0_13 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x133_S133x64_S2000x64_1_0_0_1_n_n : DotDims S2000x133 S133x64 S2000x64 where
  lhsContracting := [1]
  rhsContracting := [0]
  lhsNonContracting := [0]
  rhsNonContracting := [1]
  lhsBatch := []
  rhsBatch := []
  wf := dot_S2000x133_S133x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v53) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v61) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v62) S133x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v63) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v64) S133x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v65) S64x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg19) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v66) S2000x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x4 : Shape := ⟨2, ![100000, 4]⟩
abbrev S1600000x5 : Shape := ⟨2, ![1600000, 5]⟩
abbrev S1600000 : Shape := ⟨1, ![1600000]⟩
abbrev S4x64 : Shape := ⟨2, ![4, 64]⟩
abbrev S64 : Shape := ⟨1, ![64]⟩
abbrev S64x64 : Shape := ⟨2, ![64, 64]⟩
abbrev S133x64 : Shape := ⟨2, ![133, 64]⟩
abbrev S64x1 : Shape := ⟨2, ![64, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S1600000x133 : Shape := ⟨2, ![1600000, 133]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S100000x4, .f32⟩
  | 1 => ⟨S1600000x5, .f32⟩
  | 2 => ⟨S1600000, .i32⟩
  | 3 => ⟨S1600000, .i32⟩
  | 4 => ⟨S4x64, .f32⟩
  | 5 => ⟨S4x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64, .f32⟩
  | 12 => ⟨S133x64, .f32⟩
  | 13 => ⟨S64, .f32⟩
  | 14 => ⟨S64x1, .f32⟩
  | 15 => ⟨S1, .f32⟩
  | 16 => ⟨S133x64, .f32⟩
  | 17 => ⟨S64, .f32⟩
  | 18 => ⟨S64x1, .f32⟩
  | 19 => ⟨S1, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S_, .f32⟩
  | 44 => ⟨S100000x64, .f32⟩
  | 45 => ⟨S1600000x1, .i32⟩
  | 46 => ⟨S100000x64, .f32⟩
  | 47 => ⟨S100000x64, .f32⟩
  | 48 => ⟨S100000x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000x64, .f32⟩
  | 72 => ⟨S100000x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S1600000x64, .f32⟩
  | 91 => ⟨S1x64, .f32⟩
  | 92 => ⟨S1600000x64, .f32⟩
  | 93 => ⟨S1600000x64, .f32⟩
  | 94 => ⟨S_, .f32⟩
  | 95 => ⟨S1600000x64, .f32⟩
  | 96 => ⟨S1600000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x64, .f32⟩
  | 107 => ⟨S1x64, .f32⟩
  | 108 => ⟨S1600000x64, .f32⟩
  | 109 => ⟨S1600000x64, .f32⟩
  | 110 => ⟨S_, .f32⟩
  | 111 => ⟨S1600000x64, .f32⟩
  | 112 => ⟨S1600000x64, .f32⟩
  | 113 => ⟨S1600000x133, .f32⟩
  | 114 => ⟨S1600000x64, .f32⟩
  | 115 => ⟨S1x64, .f32⟩
  | 116 => ⟨S1600000x64, .f32⟩
  | 117 => ⟨S1600000x64, .f32⟩
  | 118 => ⟨S1600000x64, .f32⟩
  | 119 => ⟨S1600000x1, .f32⟩
  | 120 => ⟨S1x1, .f32⟩
  | 121 => ⟨S1600000x1, .f32⟩
  | 122 => ⟨S1600000x1, .f32⟩
  | 123 => ⟨S1600000x1, .f32⟩
  | 124 => ⟨S1600000x1, .f32⟩
  | 125 => ⟨S_, .f32⟩
  | 126 => ⟨S1600000x1, .f32⟩
  | 127 => ⟨S1600000x1, .f32⟩
  | _ => ⟨S100000x4, .f32⟩

abbrev hbmTy0_1 (i : Nat) : BufTy := match i % 128 with
  | 0 => ⟨S_, .f32⟩
  | 1 => ⟨S1600000x1, .f32⟩
  | 2 => ⟨S1600000x1, .f32⟩
  | 3 => ⟨S1600000x133, .f32⟩
  | 4 => ⟨S1600000x133, .f32⟩
  | 5 => ⟨S1600000x64, .f32⟩
  | 6 => ⟨S1x64, .f32⟩
  | 7 => ⟨S1600000x64, .f32⟩
  | 8 => ⟨S1600000x64, .f32⟩
  | 9 => ⟨S_, .f32⟩
  | 10 => ⟨S1600000x64, .f32⟩
  | 11 => ⟨S1600000x64, .f32⟩
  | 12 => ⟨S1600000x1, .f32⟩
  | 13 => ⟨S1x1, .f32⟩
  | 14 => ⟨S1600000x1, .f32⟩
  | 15 => ⟨S1600000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call0_cst : Ref sig .tc := ⟨.hbm, 54, rfl⟩
abbrev main_call0_v0 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_cst : Ref sig .tc := ⟨.hbm, 78, rfl⟩
abbrev main_call1_v0 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_call2_cst : Ref sig .tc := ⟨.hbm, 94, rfl⟩
abbrev main_call2_v0 : Ref sig .tc := ⟨.hbm, 95, rfl⟩
abbrev main_v58 : Ref sig .tc := ⟨.hbm, 96, rfl⟩
abbrev main_c_10 : Ref sig .tc := ⟨.hbm, 97, rfl⟩
abbrev main_v59 : Ref sig .tc := ⟨.hbm, 98, rfl⟩
abbrev main_v60 : Ref sig .tc := ⟨.hbm, 99, rfl⟩
abbrev main_c_11 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_call3_cst : Ref sig .tc := ⟨.hbm, 110, rfl⟩
abbrev main_call3_v0 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_12 : Ref sig .tc := ⟨.hbm, 125, rfl⟩
abbrev main_v83 : Ref sig .tc := ⟨.hbm, 126, rfl⟩
abbrev main_v84 : Ref sig .tc := ⟨.hbm, 127, rfl⟩
abbrev main_cst_13 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_call4_cst : Ref sig .tc := ⟨.hbm, 137, rfl⟩
abbrev main_call4_v0 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  concatenates_S1600000x64_S1600000x64_S1600000x5_S1600000x133_d1 : Shape.Concatenates [S1600000x64, S1600000x64, S1600000x5] S1600000x133 1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1600000x1_S1600000x133_0_1 : S1600000x1.BroadcastsInDim S1600000x133 (![0, 1] : Fin 2 → Fin S1600000x133.rank)
  scatter_S100000_S1600000x1_S1600000_n_0_0_1_wf : ScatterDims.WF S100000 S1600000x1 S1600000 [] [0] [0] 1
  dot_S100000x4_S4x64_S100000x64_1_0_0_1_n_n_wf : DotDims.WF S100000x4 S4x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S1600000x64_S64x64_S1600000x64_1_0_0_1_n_n_wf : DotDims.WF S1600000x64 S64x64 S1600000x64 [1] [0] [0] [1] [] []
  dot_S1600000x133_S133x64_S1600000x64_1_0_0_1_n_n_wf : DotDims.WF S1600000x133 S133x64 S1600000x64 [1] [0] [0] [1] [] []
  dot_S1600000x64_S64x1_S1600000x1_1_0_0_1_n_n_wf : DotDims.WF S1600000x64 S64x1 S1600000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x133_S133x64_S1600000x64_1_0_0_1_n_n : DotDims S1600000x133 S133x64 S1600000x64 where
  lhsContracting := [1]
  rhsContracting := [0]
  lhsNonContracting := [0]
  rhsNonContracting := [1]
  lhsBatch := []
  rhsBatch := []
  wf := dot_S1600000x133_S133x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.EdgeRow.lean ====
/-
  One edge's value, over the extended reals.

  Both programs end with the same little network applied edge by edge. For an edge whose source and destination
  node rows are `hs` and `hd` (64 entries each) and whose feature row is `e` (5 entries):

      u   = relu (hs · Wnp + bnp)          v = relu (hd · Wnp + bnp)          (64 entries each)
      ef  = (u | v | e)                                                       (133 entries, joined end to end)
      w   = logistic (tanh (ef · We1 + be1) · We2 + be2)                      (one number)
      out = relu ((ef · w) · Wl1 + bl1) · Wl2 + bl2                           (one number)

  Every product with a matrix is the plain sum over the contracted index, written in one fixed order, so no law of
  the extended reals beyond what the two texts share is needed to compare them. `edgeOut` is that number;
  `edgeArr` lays the numbers out as the [1600000, 1] result array. The last lemma reads a three-piece join along
  the second axis of a matrix with any number of rows, entry by entry, as `cat` of the pieces' rows.
-/
import Idealize.ShloMosaic.PureOps.Ideal
import Idealize.ShloMosaic.PureOps.Ideal.Laws
import Idealize.ShloMosaic.Lib.ValueIdx
import Idealize.ShloMosaic.Lib.Pipeline.Value

noncomputable section

namespace Cert.EdgeRow

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- The zero both programs take the maximum with in `relu`: the value of the f32 word of `+0.0`. -/
abbrev zero32 : EReal := Ideal.ofBits .f32 0x00000000#32

/-- Entry `k` of `x · W + b`: the sum over the contracted index, then the bias. -/
def affine {K N : Nat} (W : Mat K N) (b : Row N) (x : Fin K → EReal) (k : Fin N) : EReal :=
  (∑ l : Fin K, x l * W (ix2 l k)) + b (ix1 k)

/-- Entry `k` of `relu (x · W + b)`. -/
def proj (W : Mat 64 64) (b : Row 64) (x : Fin 64 → EReal) (k : Fin 64) : EReal :=
  max (affine W b x k) zero32

/-- Three rows joined end to end: 64 + 64 + 5 = 133 entries. -/
def cat (u v : Fin 64 → EReal) (e : Fin 5 → EReal) (l : Fin 133) : EReal :=
  if h : l.val < 64 then u ⟨l.val, h⟩
  else if h' : l.val < 128 then v ⟨l.val - 64, by omega⟩
  else e ⟨l.val - 128, by omega⟩

/-- The edge's gate: `logistic (tanh (ef · We1 + be1) · We2 + be2)`. -/
def gate (We1 : Mat 133 64) (be1 : Row 64) (We2 : Mat 64 1) (be2 : Row 1) (ef : Fin 133 → EReal) : EReal :=
  Ideal.logistic (affine We2 be2 (fun k => Ideal.tanh (affine We1 be1 ef k)) (0 : Fin 1))

/-- The edge's output from its gated row: `relu (x · Wl1 + bl1) · Wl2 + bl2`. -/
def head (Wl1 : Mat 133 64) (bl1 : Row 64) (Wl2 : Mat 64 1) (bl2 : Row 1) (x : Fin 133 → EReal) : EReal :=
  affine Wl2 bl2 (fun k => max (affine Wl1 bl1 x k) zero32) (0 : Fin 1)

/-- The joined row of an edge. -/
def edgeCat (Wnp : Mat 64 64) (bnp : Row 64) (hs hd : Fin 64 → EReal) (e : Fin 5 → EReal) : Fin 133 → EReal :=
  cat (proj Wnp bnp hs) (proj Wnp bnp hd) e

/-- One edge's output. -/
def edgeOut (Wnp : Mat 64 64) (bnp : Row 64) (We1 : Mat 133 64) (be1 : Row 64) (We2 : Mat 64 1) (be2 : Row 1)
    (Wl1 : Mat 133 64) (bl1 : Row 64) (Wl2 : Mat 64 1) (bl2 : Row 1)
    (hs hd : Fin 64 → EReal) (e : Fin 5 → EReal) : EReal :=
  head Wl1 bl1 Wl2 bl2 (fun l => edgeCat Wnp bnp hs hd e l * gate We1 be1 We2 be2 (edgeCat Wnp bnp hs hd e))

/-- The result array: edge `i 0`'s output from row `i 0` of the gathered node rows and of the edge features. -/
def edgeArr (Wnp : Mat 64 64) (bnp : Row 64) (We1 : Mat 133 64) (be1 : Row 64) (We2 : Mat 64 1) (be2 : Row 1)
    (Wl1 : Mat 133 64) (bl1 : Row 64) (Wl2 : Mat 64 1) (bl2 : Row 1)
    (hs hd : Mat 1600000 64) (ef : Mat 1600000 5) : Mat 1600000 1 :=
  fun i => edgeOut Wnp bnp We1 be1 We2 be2 Wl1 bl1 Wl2 bl2
    (fun j => hs (ix2 (i 0) j)) (fun j => hd (ix2 (i 0) j)) (fun j => ef (ix2 (i 0) j))

/-- A join of an [R, 64], an [R, 64] and an [R, 5] matrix along the second axis, read at `(p, l)`: entry `l` of
    the three rows `p` joined end to end. -/
theorem concat3_apply {R : Nat} (A B : Mat R 64) (C : Mat R 5)
    (h : Shape.Concatenates
      (([⟨⟨2, ![R, 64]⟩, A⟩, ⟨⟨2, ![R, 64]⟩, B⟩, ⟨⟨2, ![R, 5]⟩, C⟩] : List ((s : Shape) × (s.Idx → EReal))).map (·.1))
      ⟨2, ![R, 133]⟩ 1)
    (p : Fin R) (l : Fin 133) :
    concatenate ⟨2, ![R, 133]⟩ 1 [⟨⟨2, ![R, 64]⟩, A⟩, ⟨⟨2, ![R, 64]⟩, B⟩, ⟨⟨2, ![R, 5]⟩, C⟩] h (ix2 p l)
      = cat (fun j => A (ix2 p j)) (fun j => B (ix2 p j)) (fun j => C (ix2 p j)) l := by
  unfold cat
  by_cases h1 : l.val < 64
  · rw [dif_pos h1]
    exact concatenate_apply_piece 1 _ h (ix2 p l) 0 (by simp) _ A rfl rfl 0 rfl (ix2 p ⟨l.val, h1⟩)
      (fun b hb => by
        match b with
        | ⟨0, _⟩ => rfl
        | ⟨1, _⟩ => exact absurd rfl hb)
      (Nat.zero_add _)
  · rw [dif_neg h1]
    by_cases h2 : l.val < 128
    · rw [dif_pos h2]
      exact concatenate_apply_piece 1 _ h (ix2 p l) 1 (by simp) _ B rfl rfl 64 rfl (ix2 p ⟨l.val - 64, by omega⟩)
        (fun b hb => by
          match b with
          | ⟨0, _⟩ => rfl
          | ⟨1, _⟩ => exact absurd rfl hb)
        (by show 64 + (l.val - 64) = l.val; omega)
    · rw [dif_neg h2]
      exact concatenate_apply_piece 1 _ h (ix2 p l) 2 (by simp) _ C rfl rfl 128 rfl (ix2 p ⟨l.val - 128, by omega⟩)
        (fun b hb => by
          match b with
          | ⟨0, _⟩ => rfl
          | ⟨1, _⟩ => exact absurd rfl hb)
        (by show 128 + (l.val - 128) = l.val; omega)

end Cert.EdgeRow

end
-- ==== Proof.KernelRow.lean ====
/-
  The kernel body, read one row at a time.

  At a grid point the body loads a block of 2000 gathered source rows, 2000 gathered destination rows and 2000 edge
  feature rows, and the weights whole. Each of its matrix products is, entry by entry, the sum over the contracted
  index of the products of a ROW of the left factor with a column of the right one; the biases are one row repeated
  down the block; the join puts the three rows side by side; the gate is one number per row repeated along it. So row
  `p` of what the body stores depends on row `p` of the three blocks only, and is `Cert.EdgeRow.edgeOut` of those
  rows: the same sums in the same order. A change of float format is the identity on the extended reals, which is why
  the bf16 casts around every product leave no trace.
-/
import proofs.«130540_j68066641707575_1_alg».proof.Proof.Gen.KernelIdeal.Skeleton
import proofs.«130540_j68066641707575_1_alg».proof.Proof.EdgeRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelRow

open Cert.KernelIdeal Cert.KernelIdeal.Gen Cert.EdgeRow Idealize.ShloMosaic Idealize.ShloMosaic.ValueIdx

/-! ## The three matrix products at an entry

For each of the body's three product shapes: where the left and the right factor are read for output entry `i` and
contraction index `q` (the four coordinate facts), then the product into a zero accumulator at `(p, c)` as a sum
over `Fin K`. -/

/-! ### [2000, 64] · [64, 64] -/

theorem lhsA_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhsA_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhsA_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhsA_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A [2000, 64] by [64, 64] product into zero, at `(p, c)`: row `p` against column `c`. -/
theorem mmA_apply {φ₁ φ₂ : FTy} (l : FVec Ideal S2000x64 φ₁) (r : FVec Ideal S64x64 φ₂) (p : Fin 2000) (c : Fin 64) :
    matmul dot_S2000x64_S64x64_S2000x64_1_0_0_1_n_n none l r (constant S2000x64 .f32 0x00000000#32) (ix2 p c)
      = ∑ k : Fin 64, l (ix2 p k) * r (ix2 k c) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p c) ((ValueIdx.contrEquiv1 dot_S2000x64_S64x64_S2000x64_1_0_0_1_n_n 64 rfl rfl).symm k) = ix2 p k := funext fun a => Fin.ext (by
    match a with
    | ⟨0, _⟩ => exact lhsA_0 _ _
    | ⟨1, _⟩ => exact (lhsA_1 _ _).trans hk)
  have er : dot_S2000x64_S64x64_S2000x64_1_0_0_1_n_n.rhsIdx (ix2 p c) ((ValueIdx.contrEquiv1 dot_S2000x64_S64x64_S2000x64_1_0_0_1_n_n 64 rfl rfl).symm k) = ix2 k c := funext fun a => Fin.ext (by
    match a with
    | ⟨0, _⟩ => exact (rhsA_0 _ _).trans hk
    | ⟨1, _⟩ => exact rhsA_1 _ _)
  rw [el, er]

/-! ### [2000, 133] · [133, 64] -/

theorem lhsB_0 (i : S2000x64.Idx) (q : dot_S2000x133_S133x64_S2000x64_1_0_0_1_n_n.contr.Idx) :
    (dot_S2000x133_S133x64_S2000x64_1_0_0_1_n_n.lhsIdx i q 0).val = (i 0).val := by
  unfold DotDims.lhsIdx
  rw [dif_neg (show ¬(0 : Fin S2000x133.rank) ∈ dot_S2000x133_S133x64_S2000x64_1_0_0_1_n_n.lhsBatch by decide), dif_pos (show (0 : Fin S2000x133.rank) ∈ dot_S2000x133_S133x64_S2000x64_1_0_0_1_n_n.lhsNonContracting by decide)]
  rfl
theorem lhsB_1 (i : S2000x64.Idx) (q : dot_S2000x133_S133x64_S2000x64_1_0_0_1_n_n.contr.Idx) :
    (dot_S2000x133_S133x64_S2000x64_1_0_0_1_n_n.lhsIdx i q 1).val = (q ⟨0, by decide⟩).val :=
  dot_S2000x133_S133x64_S2000x64_1_0_0_1_n_n.lhsIdx_val_of_single rfl i q
theorem rhsB_0 (i : S2000x64.Idx) (q : dot_S2000x133_S133x64_S2000x64_1_0_0_1_n_n.contr.Idx) :
    (dot_S2000x133_S133x64_S2000x64_1_0_0_1_n_n.rhsIdx i q 0).val = (q ⟨0, by decide⟩).val :=
  dot_S2000x133_S133x64_S2000x64_1_0_0_1_n_n.rhsIdx_val_of_single rfl i q
theorem rhsB_1 (i : S2000x64.Idx) (q : dot_S2000x133_S133x64_S2000x64_1_0_0_1_n_n.contr.Idx) :
    (dot_S2000x133_S133x64_S2000x64_1_0_0_1_n_n.rhsIdx i q 1).val = (i 1).val := by
  unfold DotDims.rhsIdx
  rw [dif_neg (show ¬(1 : Fin S133x64.rank) ∈ dot_S2000x133_S133x64_S2000x64_1_0_0_1_n_n.rhsBatch by decide), dif_pos (show (1 : Fin S133x64.rank) ∈ dot_S2000x133_S133x64_S2000x64_1_0_0_1_n_n.rhsNonContracting by decide)]
  rfl

/-- A [2000, 133] by [133, 64] product into zero, at `(p, c)`. -/
theorem mmB_apply {φ₁ φ₂ : FTy} (l : FVec Ideal S2000x133 φ₁) (r : FVec Ideal S133x64 φ₂) (p : Fin 2000) (c : Fin 64) :
    matmul dot_S2000x133_S133x64_S2000x64_1_0_0_1_n_n none l r (constant S2000x64 .f32 0x00000000#32) (ix2 p c)
      = ∑ k : Fin 133, l (ix2 p k) * r (ix2 k c) := by
  simp only [matmul]
  rw [Ideal.matmul_constant_zero_apply, ← Equiv.sum_comp (ValueIdx.contrEquiv1 dot_S2000x133_S133x64_S2000x64_1_0_0_1_n_n 133 rfl rfl).symm]
  refine Finset.sum_congr rfl fun k _ => ?_
  have hk := ValueIdx.contrEquiv1_symm_val dot_S2000x133_S133x64_S2000x64_1_0_0_1_n_n 133 rfl rfl k
  have el : dot_S2000x133_S133x64_S2000x64_1_0_0_1_n_n.lhsIdx (ix2 p c) ((ValueIdx.contrEquiv1 dot_S2000x133_S133x64_S2000x64_1_0_0_1_n_n 133 rfl rfl).symm k) = ix2 p k := funext fun a => Fin.ext (by
    match a with
    | ⟨0, _⟩ => exact lhsB_0 _ _
    | ⟨1, _⟩ => exact (lhsB_1 _ _).trans hk)
  have er : dot_S2000x133_S133x64_S2000x64_1_0_0_1_n_n.rhsIdx (ix2 p c) ((ValueIdx.contrEquiv1 dot_S2000x133_S133x64_S2000x64_1_0_0_1_n_n 133 rfl rfl).symm k) = ix2 k c := funext fun a => Fin.ext (by
    match a with
    | ⟨0, _⟩ => exact (rhsB_0 _ _).trans hk
    | ⟨1, _⟩ => exact rhsB_1 _ _)
  rw [el, er]

/-! ### [2000, 64] · [64, 1] -/

theorem lhsC_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem lhsC_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
theorem rhsC_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
theorem rhsC_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- A [2000, 64] by [64, 1] product into zero, at `(p, c)`. -/
theorem mmC_apply {φ₁ φ₂ : FTy} (l : FVec Ideal S2000x64 φ₁) (r : FVec Ideal S64x1 φ₂) (p : Fin 2000) (c : Fin 1) :
    matmul dot_S2000x64_S64x1_S2000x1_1_0_0_1_n_n none l r (constant S2000x1 .f32 0x00000000#32) (ix2 p c)
      = ∑ k : Fin 64, l (ix2 p k) * r (ix2 k c) := by
  simp only [matmul]
  rw [Ideal.matmul_constant_zero_apply, ← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 p c) ((ValueIdx.contrEquiv1 dot_S2000x64_S64x1_S2000x1_1_0_0_1_n_n 64 rfl rfl).symm k) = ix2 p k := funext fun a => Fin.ext (by
    match a with
    | ⟨0, _⟩ => exact lhsC_0 _ _
    | ⟨1, _⟩ => exact (lhsC_1 _ _).trans hk)
  have er : dot_S2000x64_S64x1_S2000x1_1_0_0_1_n_n.rhsIdx (ix2 p c) ((ValueIdx.contrEquiv1 dot_S2000x64_S64x1_S2000x1_1_0_0_1_n_n 64 rfl rfl).symm k) = ix2 k c := funext fun a => Fin.ext (by
    match a with
    | ⟨0, _⟩ => exact (rhsC_0 _ _).trans hk
    | ⟨1, _⟩ => exact rhsC_1 _ _)
  rw [el, er]

/-! ## Repeating a row down a block, and a column along it -/

/-- A bias `b` of extent `n`, made a [1, n] row and repeated down `a` rows, reads `b` at the column. -/
theorem bias_apply {a n : ℕ} (b : (⟨1, ![n]⟩ : Shape).Idx → EReal) (h₁ : (⟨1, ![n]⟩ : Shape).ShapeCasts ⟨2, ![1, n]⟩)
    (h₂ : (⟨2, ![1, n]⟩ : Shape).Broadcasts ⟨2, ![a, n]⟩) (p : Fin a) (c : Fin n) :
    broadcastTo ⟨2, ![a, n]⟩ (shapeCast ⟨2, ![1, n]⟩ b h₁) h₂ (ix2 p c) = b (ix1 c) := by
  rw [broadcastTo_1b_ab_apply, shapeCast_a_1a_apply]

/-- An [a, 1] column repeated along `b` columns reads, at `(p, c)`, the column's entry of row `p`. -/
theorem column_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's layers at a row -/

/-- `relu (x · W + b)` over a block of 2000 rows, at `(p, k)`: entry `k` of the same of row `p`. -/
theorem relu_lin64 (x : FVec Ideal S2000x64 .f32) (W : FVec Ideal S64x64 .bf16) (b : FVec Ideal S64 .f32)
    (h₁ : S2000x64.ShapeCasts S2000x64) (h₂ : FTy.bits .bf16 < FTy.bits .f32) (h₃ : S64x64.ShapeCasts S64x64)
    (h₄ : S64.ShapeCasts S1x64) (h₅ : S1x64.Broadcasts S2000x64) (p : Fin 2000) (k : Fin 64) :
    maximumf (addf (matmul dot_S2000x64_S64x64_S2000x64_1_0_0_1_n_n none (truncf .bf16 (shapeCast S2000x64 x h₁) h₂) (shapeCast S64x64 W h₃) (constant S2000x64 .f32 0x00000000#32))
        (broadcastTo S2000x64 (shapeCast S1x64 b h₄) h₅)) (broadcast S2000x64 (Scalar.ofBits .f32 0x00000000#32)) (ix2 p k)
      = proj W b (fun j => x (ix2 p j)) k := by
  rw [shapeCast_self, shapeCast_self, maximumf_apply, addf_apply, mmA_apply, bias_apply]
  rfl

/-- The joined block at `(p, l)`: entry `l` of the joined row of row `p`. -/
theorem pay2_row (v0 v3 : Vec Ideal S2000x64 .f32) (v6 : Vec Ideal S64x64 .bf16) (v8 : Vec Ideal S64 .f32) (v21 : Vec Ideal S2000x5 .f32)
    (p : Fin 2000) (l : Fin 133) :
    k0_pay2 v0 v3 v6 v8 v21 (ix2 p l)
      = edgeCat v6 v8 (fun j => v0 (ix2 p j)) (fun j => v3 (ix2 p j)) (fun j => v21 (ix2 p j)) l := by
  unfold k0_pay2 edgeCat
  rw [concat3_apply]
  simp only [relu_lin64]

/-- The gate's argument before the second bias, at row `p`: `tanh (ef · We1 + be1) · We2`. -/
theorem pregate_row (E : FVec Ideal S2000x133 .f32) (W₁ : FVec Ideal S133x64 .bf16) (b₁ : FVec Ideal S64 .f32) (W₂ : FVec Ideal S64x1 .bf16)
    (h₂ : FTy.bits .bf16 < FTy.bits .f32) (h₃ : S133x64.ShapeCasts S133x64) (h₄ : S64.ShapeCasts S1x64) (h₅ : S1x64.Broadcasts S2000x64)
    (h₆ : S64x1.ShapeCasts S64x1) (p : Fin 2000) (z : Fin 1) :
    matmul dot_S2000x64_S64x1_S2000x1_1_0_0_1_n_n none
        (truncf .bf16 (tanh (addf (matmul dot_S2000x133_S133x64_S2000x64_1_0_0_1_n_n none (truncf .bf16 E h₂) (shapeCast S133x64 W₁ h₃) (constant S2000x64 .f32 0x00000000#32))
          (broadcastTo S2000x64 (shapeCast S1x64 b₁ h₄) h₅))) h₂)
        (shapeCast S64x1 W₂ h₆) (constant S2000x1 .f32 0x00000000#32) (ix2 p z)
      = ∑ k : Fin 64, Ideal.tanh (affine W₁ b₁ (fun l => E (ix2 p l)) k) * W₂ (ix2 k z) := by
  rw [shapeCast_self, shapeCast_self, mmC_apply]
  refine Finset.sum_congr rfl fun k _ => ?_
  show Ideal.tanh (addf (matmul dot_S2000x133_S133x64_S2000x64_1_0_0_1_n_n none (truncf .bf16 E h₂) W₁ (constant S2000x64 .f32 0x00000000#32))
          (broadcastTo S2000x64 (shapeCast S1x64 b₁ h₄) h₅) (ix2 p k)) * W₂ (ix2 k z) = _
  rw [addf_apply, mmB_apply, bias_apply]
  rfl

theorem pay3_row (v0 v3 : Vec Ideal S2000x64 .f32) (v6 : Vec Ideal S64x64 .bf16) (v8 : Vec Ideal S64 .f32) (v21 : Vec Ideal S2000x5 .f32)
    (v23 : Vec Ideal S133x64 .bf16) (v25 : Vec Ideal S64 .f32) (v32 : Vec Ideal S64x1 .bf16) (p : Fin 2000) (z : Fin 1) :
    k0_pay3 v0 v3 v6 v8 v21 v23 v25 v32 (ix2 p z)
      = ∑ k : Fin 64, Ideal.tanh (affine v23 v25 (fun l => k0_pay2 v0 v3 v6 v8 v21 (ix2 p l)) k) * v32 (ix2 k z) := by
  unfold k0_pay3
  exact pregate_row _ _ _ _ _ _ _ _ _ p z

/-- The stored block at row `p`, from the joined block `E`, the gate's argument `g` and its bias `c`. -/
theorem pay1_row (E : FVec Ideal S2000x133 .f32) (g : FVec Ideal S2000x1 .f32) (c : FVec Ideal S1x1 .f32)
    (v43 : Vec Ideal S133x64 .bf16) (v45 : Vec Ideal S64 .f32) (v53 : Vec Ideal S64x1 .bf16) (v55 : Vec Ideal S1 .f32) (p : Fin 2000) :
    k0_pay1 E g c v43 v45 v53 v55 (ix2 p (0 : Fin 1))
      = head v43 v45 v53 v55 (fun l => E (ix2 p l) * Ideal.logistic (g (ix2 p (0 : Fin 1)) + c (ix2 (0 : Fin 1) (0 : Fin 1)))) := by
  unfold k0_pay1 head
  rw [shapeCast_self, shapeCast_self, addf_apply, mmC_apply, bias_apply]
  unfold affine
  refine congrArg (· + v55 (ix1 (0 : Fin 1))) (Finset.sum_congr rfl fun k _ => congrArg (· * v53 (ix2 k (0 : Fin 1))) ?_)
  show max (addf (F := Ideal) (matmul dot_S2000x133_S133x64_S2000x64_1_0_0_1_n_n none _ v43 (constant S2000x64 .f32 0x00000000#32)) _ (ix2 p k)) zero32 = _
  rw [addf_apply, mmB_apply, bias_apply]
  refine congrArg (fun s => max (s + v45 (ix1 k)) zero32) (Finset.sum_congr rfl fun l _ => congrArg (· * v43 (ix2 l k)) ?_)
  show E (ix2 p l) * broadcastTo S2000x133 _ _ (ix2 p l) = _
  rw [column_apply]
  refine congrArg (E (ix2 p l) * ·) ?_
  show Ideal.logistic (g (ix2 p (0 : Fin 1)) + broadcastTo S2000x1 c _ (ix2 p (0 : Fin 1))) = _
  rw [broadcastTo_1b_ab_apply]

/-- Row `p` of what the body stores is the edge's output from row `p` of the three blocks. -/
theorem body_row (v0 v3 : Vec Ideal S2000x64 .f32) (v21 : Vec Ideal S2000x5 .f32) (v6 : Vec Ideal S64x64 .bf16) (v8 : Vec Ideal S64 .f32)
    (v23 : Vec Ideal S133x64 .bf16) (v25 : Vec Ideal S64 .f32) (v32 : Vec Ideal S64x1 .bf16) (v34 : Vec Ideal S1 .f32)
    (v43 : Vec Ideal S133x64 .bf16) (v45 : Vec Ideal S64 .f32) (v53 : Vec Ideal S64x1 .bf16) (v55 : Vec Ideal S1 .f32) (p : Fin 2000) :
    k0_pay1 (k0_pay2 v0 v3 v6 v8 v21) (k0_pay3 v0 v3 v6 v8 v21 v23 v25 v32) (k0_pay4 v34) v43 v45 v53 v55 (ix2 p (0 : Fin 1))
      = edgeOut v6 v8 v23 v25 v32 v34 v43 v45 v53 v55 (fun j => v0 (ix2 p j)) (fun j => v3 (ix2 p j)) (fun j => v21 (ix2 p j)) := by
  rw [pay1_row, pay3_row]
  unfold edgeOut gate
  have hc : k0_pay4 v34 (ix2 (0 : Fin 1) (0 : Fin 1)) = v34 (ix1 (0 : Fin 1)) := by
    unfold k0_pay4
    exact shapeCast_a_1a_apply _ _ _ _
  rw [hc]
  simp only [pay2_row]
  rfl

end Cert.KernelRow

end
-- ==== Proof.KernelBlocks.lean ====
/-
  The windows' blocks.

  The grid has 800 points. At point `t` the three row windows (gathered source rows, gathered destination rows, edge
  features) and the result window sit at block `(t, 0)`, and every weight window at block 0: decided once over the
  800 points. So a row window's block read at `(p, j)` is its array at `(2000 t + p, j)`, and a weight window's
  block is its whole array.
-/
import proofs.«130540_j68066641707575_1_alg».proof.Proof.Gen.KernelIdeal.Value
import proofs.«130540_j68066641707575_1_alg».proof.Proof.KernelRow

set_option maxRecDepth 16384

noncomputable section

namespace Cert.KernelBlocks

open Cert.KernelIdeal Cert.KernelIdeal.Gen Cert.EdgeRow Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The index maps, decided over the grid -/

/-- The three row windows and the result window sit at block `(t, 0)` at point `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

/-- Every weight window sits at block 0 at every point. -/
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 1) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 1) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 1) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 1) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 1) = 0 :=
  (by decide +kernel : ∀ t : Fin grid0.N, _)

/-! ## The row windows' blocks -/

/-- The source rows' block at point `t`, at `(p, j)`: the gathered source rows at row `2000 t + p`. -/
theorem rows_src (c : Dev nD) (t : Fin cfg0.N) (p : Fin 2000) (j : Fin 64) (e : Fin 1600000) (he : e.val = t.val * 2000 + p.val) :
    (iblk m c 0 t : Vec Ideal S2000x64 .f32) (ix2 p j) = (V m c main_v53 : Mat 1600000 64) (ix2 e j) := by
  obtain ⟨h0, h1, -⟩ := idx_rows t
  unfold iblk
  rw [View.read_apply]
  show V m c main_v53 _ = V m c main_v53 _
  congr 1
  funext a
  apply Fin.ext
  match a with
  | ⟨0, _⟩ => show win0_0.index t 0 * 2000 + 1 * p.val = e.val; rw [h0, he]; omega
  | ⟨1, _⟩ => show win0_0.index t 1 * 64 + 1 * j.val = j.val; rw [h1]; omega

/-- The destination rows' block at point `t`, at `(p, j)`. -/
theorem rows_dst (c : Dev nD) (t : Fin cfg0.N) (p : Fin 2000) (j : Fin 64) (e : Fin 1600000) (he : e.val = t.val * 2000 + p.val) :
    (iblk m c 1 t : Vec Ideal S2000x64 .f32) (ix2 p j) = (V m c main_v60 : Mat 1600000 64) (ix2 e j) := by
  obtain ⟨-, -, h0, h1, -⟩ := idx_rows t
  unfold iblk
  rw [View.read_apply]
  show V m c main_v60 _ = V m c main_v60 _
  congr 1
  funext a
  apply Fin.ext
  match a with
  | ⟨0, _⟩ => show win0_1.index t 0 * 2000 + 1 * p.val = e.val; rw [h0, he]; omega
  | ⟨1, _⟩ => show win0_1.index t 1 * 64 + 1 * j.val = j.val; rw [h1]; omega

/-- The edge features' block at point `t`, at `(p, j)`. -/
theorem rows_feat (c : Dev nD) (t : Fin cfg0.N) (p : Fin 2000) (j : Fin 5) (e : Fin 1600000) (he : e.val = t.val * 2000 + p.val) :
    (iblk m c 2 t : Vec Ideal S2000x5 .f32) (ix2 p j) = (V m c main_arg1 : Mat 1600000 5) (ix2 e j) := by
  obtain ⟨-, -, -, -, h0, h1, -⟩ := idx_rows t
  unfold iblk
  rw [View.read_apply]
  show V m c main_arg1 _ = V m c main_arg1 _
  congr 1
  funext a
  apply Fin.ext
  match a with
  | ⟨0, _⟩ => show win0_2.index t 0 * 2000 + 1 * p.val = e.val; rw [h0, he]; omega
  | ⟨1, _⟩ => show win0_2.index t 1 * 5 + 1 * j.val = j.val; rw [h1]; omega

/-! ## The weight windows' blocks: each is its whole array -/

theorem blk_wnp (c : Dev nD) (t : Fin cfg0.N) : (iblk m c 3 t : Vec Ideal S64x64 .bf16) = V m c main_v61 := by
  obtain ⟨h0, h1⟩ := idx_w3 t
  funext y
  unfold iblk
  rw [View.read_apply]
  show V m c main_v61 _ = V m c main_v61 y
  congr 1
  funext a
  apply Fin.ext
  match a with
  | ⟨0, _⟩ => show win0_3.index t 0 * 64 + 1 * (y 0).val = (y 0).val; rw [h0]; omega
  | ⟨1, _⟩ => show win0_3.index t 1 * 64 + 1 * (y 1).val = (y 1).val; rw [h1]; omega

theorem blk_bnp (c : Dev nD) (t : Fin cfg0.N) : (iblk m c 4 t : Vec Ideal S64 .f32) = V m c main_arg11 := by
  have h0 := idx_w4 t
  funext y
  unfold iblk
  rw [View.read_apply]
  show V m c main_arg11 _ = V m c main_arg11 y
  congr 1
  funext a
  apply Fin.ext
  match a with
  | ⟨0, _⟩ => show win0_4.index t 0 * 64 + 1 * (y 0).val = (y 0).val; rw [h0]; omega

theorem blk_we1 (c : Dev nD) (t : Fin cfg0.N) : (iblk m c 5 t : Vec Ideal S133x64 .bf16) = V m c main_v62 := by
  obtain ⟨h0, h1⟩ := idx_w5 t
  funext y
  unfold iblk
  rw [View.read_apply]
  show V m c main_v62 _ = V m c main_v62 y
  congr 1
  funext a
  apply Fin.ext
  match a with
  | ⟨0, _⟩ => show win0_5.index t 0 * 133 + 1 * (y 0).val = (y 0).val; rw [h0]; omega
  | ⟨1, _⟩ => show win0_5.index t 1 * 64 + 1 * (y 1).val = (y 1).val; rw [h1]; omega

theorem blk_be1 (c : Dev nD) (t : Fin cfg0.N) : (iblk m c 6 t : Vec Ideal S64 .f32) = V m c main_arg13 := by
  have h0 := idx_w6 t
  funext y
  unfold iblk
  rw [View.read_apply]
  show V m c main_arg13 _ = V m c main_arg13 y
  congr 1
  funext a
  apply Fin.ext
  match a with
  | ⟨0, _⟩ => show win0_6.index t 0 * 64 + 1 * (y 0).val = (y 0).val; rw [h0]; omega

theorem blk_we2 (c : Dev nD) (t : Fin cfg0.N) : (iblk m c 7 t : Vec Ideal S64x1 .bf16) = V m c main_v63 := by
  obtain ⟨h0, h1⟩ := idx_w7 t
  funext y
  unfold iblk
  rw [View.read_apply]
  show V m c main_v63 _ = V m c main_v63 y
  congr 1
  funext a
  apply Fin.ext
  match a with
  | ⟨0, _⟩ => show win0_7.index t 0 * 64 + 1 * (y 0).val = (y 0).val; rw [h0]; omega
  | ⟨1, _⟩ => show win0_7.index t 1 * 1 + 1 * (y 1).val = (y 1).val; rw [h1]; omega

theorem blk_be2 (c : Dev nD) (t : Fin cfg0.N) : (iblk m c 8 t : Vec Ideal S1 .f32) = V m c main_arg15 := by
  have h0 := idx_w8 t
  funext y
  unfold iblk
  rw [View.read_apply]
  show V m c main_arg15 _ = V m c main_arg15 y
  congr 1
  funext a
  apply Fin.ext
  match a with
  | ⟨0, _⟩ => show win0_8.index t 0 * 1 + 1 * (y 0).val = (y 0).val; rw [h0]; omega

theorem blk_wl1 (c : Dev nD) (t : Fin cfg0.N) : (iblk m c 9 t : Vec Ideal S133x64 .bf16) = V m c main_v64 := by
  obtain ⟨h0, h1⟩ := idx_w9 t
  funext y
  unfold iblk
  rw [View.read_apply]
  show V m c main_v64 _ = V m c main_v64 y
  congr 1
  funext a
  apply Fin.ext
  match a with
  | ⟨0, _⟩ => show win0_9.index t 0 * 133 + 1 * (y 0).val = (y 0).val; rw [h0]; omega
  | ⟨1, _⟩ => show win0_9.index t 1 * 64 + 1 * (y 1).val = (y 1).val; rw [h1]; omega

theorem blk_bl1 (c : Dev nD) (t : Fin cfg0.N) : (iblk m c 10 t : Vec Ideal S64 .f32) = V m c main_arg17 := by
  have h0 := idx_w10 t
  funext y
  unfold iblk
  rw [View.read_apply]
  show V m c main_arg17 _ = V m c main_arg17 y
  congr 1
  funext a
  apply Fin.ext
  match a with
  | ⟨0, _⟩ => show win0_10.index t 0 * 64 + 1 * (y 0).val = (y 0).val; rw [h0]; omega

theorem blk_wl2 (c : Dev nD) (t : Fin cfg0.N) : (iblk m c 11 t : Vec Ideal S64x1 .bf16) = V m c main_v65 := by
  obtain ⟨h0, h1⟩ := idx_w11 t
  funext y
  unfold iblk
  rw [View.read_apply]
  show V m c main_v65 _ = V m c main_v65 y
  congr 1
  funext a
  apply Fin.ext
  match a with
  | ⟨0, _⟩ => show win0_11.index t 0 * 64 + 1 * (y 0).val = (y 0).val; rw [h0]; omega
  | ⟨1, _⟩ => show win0_11.index t 1 * 1 + 1 * (y 1).val = (y 1).val; rw [h1]; omega

theorem blk_bl2 (c : Dev nD) (t : Fin cfg0.N) : (iblk m c 12 t : Vec Ideal S1 .f32) = V m c main_arg19 := by
  have h0 := idx_w12 t
  funext y
  unfold iblk
  rw [View.read_apply]
  show V m c main_arg19 _ = V m c main_arg19 y
  congr 1
  funext a
  apply Fin.ext
  match a with
  | ⟨0, _⟩ => show win0_12.index t 0 * 1 + 1 * (y 0).val = (y 0).val; rw [h0]; omega

end Cert.KernelBlocks

end
-- ==== Proof.KernelValue.lean ====
/-
  From the blocks to the array.

  With the body read row by row and every block read off its array, what point `t` writes back is block `t` of
  `Cert.EdgeRow.edgeArr` of the arrays the region finds. Point `t` writes rows `2000 t … 2000 t + 1999` of the
  [1600000, 1] result and 800 · 2000 = 1600000, so the blocks cover it: after the run the result array IS `edgeArr`.
-/
import proofs.«130540_j68066641707575_1_alg».proof.Proof.Gen.KernelIdeal.Value
import proofs.«130540_j68066641707575_1_alg».proof.Proof.KernelRow
import proofs.«130540_j68066641707575_1_alg».proof.Proof.KernelBlocks

set_option maxRecDepth 16384

noncomputable section

namespace Cert.KernelValue

open Cert.KernelIdeal Cert.KernelIdeal.Gen Cert.EdgeRow Cert.KernelBlocks Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What a point writes back, the cover, and the array after the run -/

/-- `edgeArr` at row `e`: the edge's output from row `e` of the three arrays. -/
theorem edgeArr_row (Wnp : Mat 64 64) (bnp : Row 64) (We1 : Mat 133 64) (be1 : Row 64) (We2 : Mat 64 1) (be2 : Row 1)
    (Wl1 : Mat 133 64) (bl1 : Row 64) (Wl2 : Mat 64 1) (bl2 : Row 1) (hs hd : Mat 1600000 64) (ef : Mat 1600000 5) (e : Fin 1600000) :
    edgeArr Wnp bnp We1 be1 We2 be2 Wl1 bl1 Wl2 bl2 hs hd ef (ix2 e (0 : Fin 1))
      = edgeOut Wnp bnp We1 be1 We2 be2 Wl1 bl1 Wl2 bl2 (fun j => hs (ix2 e j)) (fun j => hd (ix2 e j)) (fun j => ef (ix2 e j)) := rfl

/-- The result array as one function of the arrays the region finds: every edge's output. -/
abbrev outArr (c : Dev nD) : Mat 1600000 1 :=
  edgeArr (V m c main_v61) (V m c main_arg11) (V m c main_v62) (V m c main_arg13) (V m c main_v63) (V m c main_arg15)
    (V m c main_v64) (V m c main_arg17) (V m c main_v65) (V m c main_arg19) (V m c main_v53) (V m c main_v60) (V m c main_arg1)

set_option maxHeartbeats 1000000 in
/-- What point `t` writes back is block `t` of `outArr`. -/
theorem flushed_eq (c : Dev nD) (t : Fin cfg0.N) :
    (dats m 0 c).flushed 13 t = ((cfg0.win 13).blk t).view.read (Elt Ideal) (outArr m c) := by
  rw [Cert.KernelIdeal.Value.flushed13]
  unfold out0_13
  rw [View.canon_unit_zero hz2]
  simp only [View.ld_unit_zero (S := S2000x64) hz2, View.ld_unit_zero (S := S2000x5) hz2, View.ld_unit_zero (S := S64x64) hz2,
    View.ld_unit_zero (S := S133x64) hz2, View.ld_unit_zero (S := S64x1) hz2, View.ld_unit_zero (S := S64) hz1,
    View.ld_unit_zero (S := S1) hz1]
  rw [blk_wnp m c t, blk_bnp m c t, blk_we1 m c t, blk_be1 m c t, blk_we2 m c t, blk_be2 m c t, blk_wl1 m c t, blk_bl1 m c t,
    blk_wl2 m c t, blk_bl2 m c t]
  obtain ⟨-, -, -, -, -, -, h13, h13'⟩ := idx_rows t
  funext y
  obtain ⟨p, q, rfl⟩ : ∃ (p : Fin 2000) (q : Fin 1), y = ix2 p q := ⟨y 0, y 1, eq_ix2 y⟩
  obtain rfl : q = 0 := Subsingleton.elim _ _
  have hN : cfg0.N = 800 := N_0
  have hlt : t.val * 2000 + p.val < 1600000 := by have := t.isLt; have := p.isLt; omega
  -- row `p` of block `t` is row `2000 t + p` of the result
  have hemb : ((cfg0.win 13).blk t).view.emb (ix2 p (0 : Fin 1))
      = (ix2 (⟨t.val * 2000 + p.val, hlt⟩ : Fin 1600000) (0 : Fin 1) : S1600000x1.Idx) := by
    funext a
    apply Fin.ext
    match a with
    | ⟨0, _⟩ => show win0_13.index t 0 * 2000 + 1 * p.val = t.val * 2000 + p.val; rw [h13]; omega
    | ⟨1, _⟩ => show win0_13.index t 1 * 1 + 1 * 0 = 0; rw [h13']
  show k0_pay1 (F := Ideal) _ _ _ _ _ _ _ (ix2 p (0 : Fin 1))
      = edgeArr (V m c main_v61) (V m c main_arg11) (V m c main_v62) (V m c main_arg13) (V m c main_v63) (V m c main_arg15)
          (V m c main_v64) (V m c main_arg17) (V m c main_v65) (V m c main_arg19) (V m c main_v53) (V m c main_v60) (V m c main_arg1)
          (((cfg0.win 13).blk t).view.emb (ix2 p (0 : Fin 1)))
  rw [hemb, edgeArr_row]
  refine (Cert.KernelRow.body_row (iblk m c 0 t) (iblk m c 1 t) (iblk m c 2 t) (V m c main_v61) (V m c main_arg11) (V m c main_v62)
    (V m c main_arg13) (V m c main_v63) (V m c main_arg15) (V m c main_v64) (V m c main_arg17) (V m c main_v65) (V m c main_arg19) p).trans ?_
  exact congr (congr (congrArg (edgeOut (V m c main_v61) (V m c main_arg11) (V m c main_v62) (V m c main_arg13) (V m c main_v63)
      (V m c main_arg15) (V m c main_v64) (V m c main_arg17) (V m c main_v65) (V m c main_arg19))
    (funext fun j => rows_src m c t p j ⟨t.val * 2000 + p.val, hlt⟩ rfl))
    (funext fun j => rows_dst m c t p j ⟨t.val * 2000 + p.val, hlt⟩ rfl))
    (funext fun j => rows_feat m c t p j ⟨t.val * 2000 + p.val, hlt⟩ rfl)

/-- An index of the result is in point `t`'s block iff each coordinate is in the block's range. -/
theorem mem_blk (t : Fin cfg0.N) (i : S1600000x1.Idx) :
    i ∈ ((cfg0.win 13).blk t).view.set ↔ ∀ a : Fin 2, win0_13.index t a * S2000x1.size a ≤ (i a).val ∧ (i a).val < win0_13.index t a * S2000x1.size a + S2000x1.size a := by
  show i ∈ ((View.whole main_v66).slice (win0_13.rect t)).set ↔ _
  rw [View.set_slice_whole, Rect.mem_set_unit]
  exact Iff.rfl

/-- Row `r` of the result lies in the block of point `r / 2000`. -/
theorem cover (i : S1600000x1.Idx) :
    ∃ t : Fin cfg0.N, (cfg0.win 13).flush t = true ∧ i ∈ ((cfg0.win 13).blk t).view.set := by
  have hi0 : (i 0).val < 1600000 := (i 0).isLt
  have hi1 : (i 1).val < 1 := (i 1).isLt
  have hN : cfg0.N = 800 := N_0
  let t : Fin cfg0.N := ⟨(i 0).val / 2000, by rw [hN]; omega⟩
  have ht : t.val = (i 0).val / 2000 := rfl
  obtain ⟨-, -, -, -, -, -, h0, h1⟩ := idx_rows t
  refine ⟨t, flush0_13 t, ?_⟩
  rw [mem_blk]
  intro a
  match a with
  | ⟨0, _⟩ =>
    show win0_13.index t 0 * 2000 ≤ (i 0).val ∧ (i 0).val < win0_13.index t 0 * 2000 + 2000
    rw [h0, ht]; omega
  | ⟨1, _⟩ =>
    show win0_13.index t 1 * 1 ≤ (i 1).val ∧ (i 1).val < win0_13.index t 1 * 1 + 1
    rw [h1]; omega

/-- After the run the result array is `outArr`. -/
theorem final (c : Dev nD) : (dats m 0 c).arrAt 13 cfg0.N = outArr m c :=
  (dats m 0 c).arrAt_eq_of_cover 13 (outArr m c) (fun t _ => flushed_eq m c t) cover

/-- The kernel's run: the result array at `outArr`, every argument as launched. -/
theorem run : θ_run defs (onTc (τ := τ) (main (F := Ideal))) ⟨m, fun _ => 0, ρ⟩ fun r => ∀ c : Dev nD,
      r.2.mem ((c : Thread nD τ).loc main_v66) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (final m c), (h c).2⟩) (Cert.KernelIdeal.Value.run_blocks m ρ)

end Cert.KernelValue

end
-- ==== Proof.RefRow.lean ====
/-
  The reference program's last stages, read edge by edge.

  After the two gathers (the source and the destination node rows of every edge, kept here as the opaque matrices
  they are), the reference program is the edge network of `Cert.EdgeRow` applied to all 1600000 edges at once:
  every stage is a whole-matrix operation whose entry at row `e` depends only on row `e` of its operands. This module
  reads the stages at row `e`, one layer at a time:

      stages 54-58 and 66-70   relu (h[src] · Wnp + bnp) and relu (h[dst] · Wnp + bnp)   = `proj` of the gathered rows
      stage  71                the join of the two with the edge features                 = `edgeCat`
      stages 72-76             tanh (ef · We1 + be1)
      stages 77-86             1 / (1 + exp (-(· We2 + be2)))                             = `gate`
      stages 87-93             relu ((ef · gate) · Wl1 + bl1)
      stages 94-97             · Wl2 + bl2                                                = `head`

  A product with a matrix is the sum over the contracted index in the same order on both sides, a bias is read at the
  column, and the logistic function is by definition `1 / (1 + exp (-x))`; so each layer is an unfolding, and the
  only work is to identify the index each stage reads its operands at. The result array is `edgeArr`.
-/
import proofs.«130540_j68066641707575_1_alg».proof.Proof.Gen.ReferenceIdeal.Read
import proofs.«130540_j68066641707575_1_alg».proof.Proof.EdgeRow
import Idealize.ShloMosaic.Lib.IdealHost

noncomputable section

namespace Cert.RefRow

open Cert.ReferenceIdeal Cert.ReferenceIdeal.Gen Cert.ReferenceIdeal.Read Cert.EdgeRow
open Idealize.ShloMosaic Idealize.ShloMosaic.ValueIdx Idealize.ShloMosaic.TcCoe Idealize.SL.Sem Idealize.ShloMosaic.StableHlo

/-! ## Where each stage reads its operands

  At the entry `(e, k)` of its result, a product `A · W` reads `A` at `(e, l)` and `W` at `(l, k)` for the contracted
  index `l`; a bias spread over the rows is read at `k`; the gate spread over the 133 columns is read at `(e, 0)`. -/

theorem lidx54 (e : Fin 1600000) (k : Fin 64) (l : Fin 64) : lidx_main_v54 (ix2 e k) l = ix2 e l :=
  funext fun a => by match a with | ⟨0, _⟩ => rfl | ⟨1, _⟩ => rfl
theorem ridx54 (e : Fin 1600000) (k : Fin 64) (l : Fin 64) : ridx_main_v54 (ix2 e k) l = ix2 l k :=
  funext fun a => by match a with | ⟨0, _⟩ => rfl | ⟨1, _⟩ => rfl
theorem bias56 (e : Fin 1600000) (k : Fin 64) : idx_main_v55 (idx_main_v56 (ix2 e k)) = ix1 k :=
  funext fun a => by match a with | ⟨0, _⟩ => rfl
theorem lidx66 (e : Fin 1600000) (k : Fin 64) (l : Fin 64) : lidx_main_v66 (ix2 e k) l = ix2 e l :=
  funext fun a => by match a with | ⟨0, _⟩ => rfl | ⟨1, _⟩ => rfl
theorem ridx66 (e : Fin 1600000) (k : Fin 64) (l : Fin 64) : ridx_main_v66 (ix2 e k) l = ix2 l k :=
  funext fun a => by match a with | ⟨0, _⟩ => rfl | ⟨1, _⟩ => rfl
theorem bias68 (e : Fin 1600000) (k : Fin 64) : idx_main_v67 (idx_main_v68 (ix2 e k)) = ix1 k :=
  funext fun a => by match a with | ⟨0, _⟩ => rfl
theorem lidx72 (e : Fin 1600000) (k : Fin 64) (l : Fin 133) : lidx_main_v72 (ix2 e k) l = ix2 e l :=
  funext fun a => by match a with | ⟨0, _⟩ => rfl | ⟨1, _⟩ => rfl
theorem ridx72 (e : Fin 1600000) (k : Fin 64) (l : Fin 133) : ridx_main_v72 (ix2 e k) l = ix2 l k :=
  funext fun a => by match a with | ⟨0, _⟩ => rfl | ⟨1, _⟩ => rfl
theorem bias74 (e : Fin 1600000) (k : Fin 64) : idx_main_v73 (idx_main_v74 (ix2 e k)) = ix1 k :=
  funext fun a => by match a with | ⟨0, _⟩ => rfl
theorem lidx77 (e : Fin 1600000) (k : Fin 1) (l : Fin 64) : lidx_main_v77 (ix2 e k) l = ix2 e l :=
  funext fun a => by match a with | ⟨0, _⟩ => rfl | ⟨1, _⟩ => rfl
theorem ridx77 (e : Fin 1600000) (k : Fin 1) (l : Fin 64) : ridx_main_v77 (ix2 e k) l = ix2 l k :=
  funext fun a => by match a with | ⟨0, _⟩ => rfl | ⟨1, _⟩ => rfl
theorem bias79 (e : Fin 1600000) : idx_main_v78 (idx_main_v79 (ix2 e (0 : Fin 1))) = ix1 (0 : Fin 1) :=
  funext fun a => by match a with | ⟨0, _⟩ => rfl
theorem gate87 (e : Fin 1600000) (l : Fin 133) : idx_main_v87 (ix2 e l) = ix2 e (0 : Fin 1) :=
  funext fun a => by match a with | ⟨0, _⟩ => rfl | ⟨1, _⟩ => rfl
theorem lidx89 (e : Fin 1600000) (k : Fin 64) (l : Fin 133) : lidx_main_v89 (ix2 e k) l = ix2 e l :=
  funext fun a => by match a with | ⟨0, _⟩ => rfl | ⟨1, _⟩ => rfl
theorem ridx89 (e : Fin 1600000) (k : Fin 64) (l : Fin 133) : ridx_main_v89 (ix2 e k) l = ix2 l k :=
  funext fun a => by match a with | ⟨0, _⟩ => rfl | ⟨1, _⟩ => rfl
theorem bias91 (e : Fin 1600000) (k : Fin 64) : idx_main_v90 (idx_main_v91 (ix2 e k)) = ix1 k :=
  funext fun a => by match a with | ⟨0, _⟩ => rfl
theorem lidx94 (e : Fin 1600000) (k : Fin 1) (l : Fin 64) : lidx_main_v94 (ix2 e k) l = ix2 e l :=
  funext fun a => by match a with | ⟨0, _⟩ => rfl | ⟨1, _⟩ => rfl
theorem ridx94 (e : Fin 1600000) (k : Fin 1) (l : Fin 64) : ridx_main_v94 (ix2 e k) l = ix2 l k :=
  funext fun a => by match a with | ⟨0, _⟩ => rfl | ⟨1, _⟩ => rfl
theorem bias96 (e : Fin 1600000) : idx_main_v95 (idx_main_v96 (ix2 e (0 : Fin 1))) = ix1 (0 : Fin 1) :=
  funext fun a => by match a with | ⟨0, _⟩ => rfl

/-! ## The layers at row `e` -/

variable (x0 : (⟨S100000x4, .f32⟩ : BufTy).Contents (Elt Ideal)) (x1 : (⟨S1600000x5, .f32⟩ : BufTy).Contents (Elt Ideal)) (x2 x3 : (⟨S1600000, .i32⟩ : BufTy).Contents (Elt Ideal)) (x4 x5 : (⟨S4x64, .f32⟩ : BufTy).Contents (Elt Ideal)) (x6 : (⟨S64, .f32⟩ : BufTy).Contents (Elt Ideal)) (x7 x8 : (⟨S64x64, .f32⟩ : BufTy).Contents (Elt Ideal))
  (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S133x64, .f32⟩ : BufTy).Contents (Elt Ideal)) (x13 : (⟨S64, .f32⟩ : BufTy).Contents (Elt Ideal)) (x14 : (⟨S64x1, .f32⟩ : BufTy).Contents (Elt Ideal))
  (x15 : (⟨S1, .f32⟩ : BufTy).Contents (Elt Ideal)) (x16 : (⟨S133x64, .f32⟩ : BufTy).Contents (Elt Ideal)) (x17 : (⟨S64, .f32⟩ : BufTy).Contents (Elt Ideal)) (x18 : (⟨S64x1, .f32⟩ : BufTy).Contents (Elt Ideal)) (x19 : (⟨S1, .f32⟩ : BufTy).Contents (Elt Ideal))

/-- Stages 54-58: entry `k` of `relu (hs · Wnp + bnp)` for row `e` of the gathered source rows. -/
theorem src_row (e : Fin 1600000) (k : Fin 64) :
    val_main_v58 (F := Ideal) x0 x2 x3 x4 x5 x6 x7 x8 x9 x10 x11 (ix2 e k)
      = proj x10 x11 (fun j => val_main_v53 (F := Ideal) x0 x2 x3 x4 x5 x6 x7 x8 x9 (ix2 e j)) k := by
  rw [val_main_v58_apply, val_main_v57_apply, val_main_v54_apply, val_main_v56_apply, val_main_v55_apply,
    val_main_call2_v0_apply, val_main_call2_cst_apply, bias56]
  simp only [lidx54, ridx54]
  rfl

/-- Stages 66-70: the same for row `e` of the gathered destination rows. -/
theorem dst_row (e : Fin 1600000) (k : Fin 64) :
    val_main_v70 (F := Ideal) x0 x2 x3 x4 x5 x6 x7 x8 x9 x10 x11 (ix2 e k)
      = proj x10 x11 (fun j => val_main_v65 (F := Ideal) x0 x2 x3 x4 x5 x6 x7 x8 x9 (ix2 e j)) k := by
  rw [val_main_v70_apply, val_main_v69_apply, val_main_v66_apply, val_main_v68_apply, val_main_v67_apply,
    val_main_call3_v0_apply, val_main_call3_cst_apply, bias68]
  simp only [lidx66, ridx66]
  rfl

/-- Stage 71: row `e` of the join is the joined row of edge `e`. -/
theorem cat_row (e : Fin 1600000) (l : Fin 133) :
    val_main_v71 (F := Ideal) x0 x1 x2 x3 x4 x5 x6 x7 x8 x9 x10 x11 (ix2 e l)
      = edgeCat x10 x11 (fun j => val_main_v53 (F := Ideal) x0 x2 x3 x4 x5 x6 x7 x8 x9 (ix2 e j))
          (fun j => val_main_v65 (F := Ideal) x0 x2 x3 x4 x5 x6 x7 x8 x9 (ix2 e j)) (fun j => x1 (ix2 e j)) l := by
  have hu : (fun j : Fin 64 => val_main_v58 (F := Ideal) x0 x2 x3 x4 x5 x6 x7 x8 x9 x10 x11 (ix2 e j))
      = proj x10 x11 (fun j => val_main_v53 (F := Ideal) x0 x2 x3 x4 x5 x6 x7 x8 x9 (ix2 e j)) :=
    funext fun j => src_row x0 x2 x3 x4 x5 x6 x7 x8 x9 x10 x11 e j
  have hv : (fun j : Fin 64 => val_main_v70 (F := Ideal) x0 x2 x3 x4 x5 x6 x7 x8 x9 x10 x11 (ix2 e j))
      = proj x10 x11 (fun j => val_main_v65 (F := Ideal) x0 x2 x3 x4 x5 x6 x7 x8 x9 (ix2 e j)) :=
    funext fun j => dst_row x0 x2 x3 x4 x5 x6 x7 x8 x9 x10 x11 e j
  unfold val_main_v71 edgeCat
  refine (concat3_apply (R := 1600000) (val_main_v58 (F := Ideal) x0 x2 x3 x4 x5 x6 x7 x8 x9 x10 x11)
    (val_main_v70 (F := Ideal) x0 x2 x3 x4 x5 x6 x7 x8 x9 x10 x11) x1 _ e l).trans ?_
  rw [hu, hv]

/-- Stages 72-76: entry `k` of `tanh (ef · We1 + be1)` for the joined row of edge `e`. -/
theorem hidden_row (e : Fin 1600000) (k : Fin 64) :
    val_main_v76 (F := Ideal) x0 x1 x2 x3 x4 x5 x6 x7 x8 x9 x10 x11 x12 x13 (ix2 e k)
      = Ideal.tanh (affine x12 x13 (fun l => val_main_v71 (F := Ideal) x0 x1 x2 x3 x4 x5 x6 x7 x8 x9 x10 x11 (ix2 e l)) k) := by
  rw [val_main_v76_apply, val_main_v75_apply, val_main_v72_apply, val_main_v74_apply, val_main_v73_apply, bias74]
  simp only [lidx72, ridx72]
  rfl

/-- Stages 77-86: the gate of edge `e`; the two words `0x3F800000` are the number one, and
    `1 / (1 + exp (-x))` is the logistic function. -/
theorem gate_row (e : Fin 1600000) :
    val_main_v86 (F := Ideal) x0 x1 x2 x3 x4 x5 x6 x7 x8 x9 x10 x11 x12 x13 x14 x15 (ix2 e (0 : Fin 1))
      = gate x12 x13 x14 x15 (fun l => val_main_v71 (F := Ideal) x0 x1 x2 x3 x4 x5 x6 x7 x8 x9 x10 x11 (ix2 e l)) := by
  rw [val_main_v86_apply, val_main_v85_apply, val_main_cst_13_apply, val_main_v84_apply, val_main_v83_apply,
    val_main_cst_12_apply, val_main_v82_apply, val_main_v81_apply, val_main_v80_apply, val_main_v77_apply,
    val_main_v79_apply, val_main_v78_apply, bias79]
  simp only [lidx77, ridx77, hidden_row, Ideal.ofBits_def, Ideal.ofBits_one_f32]
  rfl

/-- Stages 87-93: entry `k` of `relu ((ef · gate) · Wl1 + bl1)` for edge `e`. -/
theorem gated_row (e : Fin 1600000) (k : Fin 64) :
    val_main_v93 (F := Ideal) x0 x1 x2 x3 x4 x5 x6 x7 x8 x9 x10 x11 x12 x13 x14 x15 x16 x17 (ix2 e k)
      = max (affine x16 x17 (fun l => val_main_v71 (F := Ideal) x0 x1 x2 x3 x4 x5 x6 x7 x8 x9 x10 x11 (ix2 e l)
          * val_main_v86 (F := Ideal) x0 x1 x2 x3 x4 x5 x6 x7 x8 x9 x10 x11 x12 x13 x14 x15 (ix2 e (0 : Fin 1))) k) zero32 := by
  rw [val_main_v93_apply, val_main_v92_apply, val_main_v89_apply, val_main_v91_apply, val_main_v90_apply,
    val_main_call4_v0_apply, val_main_call4_cst_apply, bias91]
  simp only [lidx89, ridx89, val_main_v88_apply, val_main_v87_apply, gate87]
  rfl

/-- Stages 94-97: the output of edge `e` from its gated row. -/
theorem out_row (e : Fin 1600000) :
    val_main_v97 (F := Ideal) x0 x1 x2 x3 x4 x5 x6 x7 x8 x9 x10 x11 x12 x13 x14 x15 x16 x17 x18 x19 (ix2 e (0 : Fin 1))
      = head x16 x17 x18 x19 (fun l => val_main_v71 (F := Ideal) x0 x1 x2 x3 x4 x5 x6 x7 x8 x9 x10 x11 (ix2 e l)
          * val_main_v86 (F := Ideal) x0 x1 x2 x3 x4 x5 x6 x7 x8 x9 x10 x11 x12 x13 x14 x15 (ix2 e (0 : Fin 1))) := by
  rw [val_main_v97_apply, val_main_v94_apply, val_main_v96_apply, val_main_v95_apply, bias96]
  simp only [lidx94, ridx94, gated_row]
  rfl

/-! ## The result array -/

/-- The reference's result is the edge network applied to every row of the two gathered matrices and of the edge
    features. -/
theorem ref_is_edgeArr :
    val_main_v97 (F := Ideal) x0 x1 x2 x3 x4 x5 x6 x7 x8 x9 x10 x11 x12 x13 x14 x15 x16 x17 x18 x19
      = edgeArr x10 x11 x12 x13 x14 x15 x16 x17 x18 x19
          (val_main_v53 (F := Ideal) x0 x2 x3 x4 x5 x6 x7 x8 x9)
          (val_main_v65 (F := Ideal) x0 x2 x3 x4 x5 x6 x7 x8 x9) x1 := by
  funext i
  obtain ⟨e, z, rfl⟩ : ∃ (e : Fin 1600000) (z : Fin 1), i = ix2 e z := ⟨i 0, i 1, eq_ix2 i⟩
  obtain rfl : z = 0 := Subsingleton.elim _ _
  rw [out_row, gate_row]
  simp only [cat_row]
  rfl

end Cert.RefRow

end
-- ==== Proof.HostPrefix.lean ====
/-
  The arrays the kernel program's one region reads, as stages of the reference program.

  Before its region the kernel program runs 84 whole-array operations: the two node layers (each one the
  neighbour rows gathered along the edges, added up at the receiving node, divided by the node's in-degree, then two
  products with weight matrices, a bias and relu), the gather of the finished node rows at every edge's source and at
  every edge's destination, and five conversions of weight matrices to bf16. The reference program begins with the
  same operations, in the same order, on the same arguments: the kernel program's operations %0 … %53 are the
  reference's stages %0 … %53, and its %54 … %60 (the destination gather) are the reference's %59 … %65, the
  reference having put the source rows' projection in between. So the array the region finds at a buffer is the
  reference's stage at the launch arguments. Over the extended reals a conversion to bf16 changes no entry, so the
  five converted matrices are the arguments themselves.

  Each proof reads the buffer after the whole line of operations: the last operation that writes it applied to what
  its operand buffers held before, and so on down to the arguments. What is left is the composition of the same
  operations that the reference's stage is defined as; the two texts name their shapes and index records apart, with
  equal contents, and nothing is evaluated: the gathers, the scatters and every array stay symbols.
-/
import proofs.«130540_j68066641707575_1_alg».proof.Proof.Gen.KernelIdeal.Frame
import proofs.«130540_j68066641707575_1_alg».proof.Proof.Gen.ReferenceIdeal.Read
import proofs.«130540_j68066641707575_1_alg».proof.Proof.EdgeRow
import Idealize.ShloMosaic.Lib.StableHlo.Run

noncomputable section

namespace Cert.HostPrefix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

set_option maxHeartbeats 4000000 in
/-- The node rows gathered at the edges' sources (%53): the reference's stage 53. Of the 84 operations of the
    line some sixty feed this buffer, the first layer's rows through both terms of the second layer's sum. -/
theorem src_rows : (V m c main_v53 : Cert.EdgeRow.Mat 1600000 64)
    = Cert.ReferenceIdeal.Read.val_main_v53 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [V]
  simp only [hostOps0, hostOps0_1, hostOps0_2, hostOps0_3, hostOps0_4, List.flatten_cons, List.flatten_nil, List.append_nil,
    List.cons_append, List.nil_append]
  after_results_simp
  rfl

set_option maxHeartbeats 4000000 in
/-- The node rows gathered at the edges' destinations (%60): the reference's stage 65. -/
theorem dst_rows : (V m c main_v60 : Cert.EdgeRow.Mat 1600000 64)
    = Cert.ReferenceIdeal.Read.val_main_v65 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  dsimp only [V]
  simp only [hostOps0, hostOps0_1, hostOps0_2, hostOps0_3, hostOps0_4, List.flatten_cons, List.flatten_nil, List.append_nil,
    List.cons_append, List.nil_append]
  after_results_simp
  rfl

/-- %61, the projection's weights converted to bf16: the argument itself. -/
theorem wnp : (V m c main_v61 : Cert.EdgeRow.Mat 64 64)
    = (m ((c : Thread nD τ).loc main_arg10)) := by
  dsimp only [V]
  simp only [hostOps0, hostOps0_1, hostOps0_2, hostOps0_3, hostOps0_4, List.flatten_cons, List.flatten_nil, List.append_nil,
    List.cons_append, List.nil_append]
  after_results_simp
  rfl

/-- %62, the gate's first weights converted to bf16: the argument itself. -/
theorem we1 : (V m c main_v62 : Cert.EdgeRow.Mat 133 64)
    = (m ((c : Thread nD τ).loc main_arg12)) := by
  dsimp only [V]
  simp only [hostOps0, hostOps0_1, hostOps0_2, hostOps0_3, hostOps0_4, List.flatten_cons, List.flatten_nil, List.append_nil,
    List.cons_append, List.nil_append]
  after_results_simp
  rfl

/-- %63, the gate's second weights converted to bf16: the argument itself. -/
theorem we2 : (V m c main_v63 : Cert.EdgeRow.Mat 64 1)
    = (m ((c : Thread nD τ).loc main_arg14)) := by
  dsimp only [V]
  simp only [hostOps0, hostOps0_1, hostOps0_2, hostOps0_3, hostOps0_4, List.flatten_cons, List.flatten_nil, List.append_nil,
    List.cons_append, List.nil_append]
  after_results_simp
  rfl

/-- %64, the head's first weights converted to bf16: the argument itself. -/
theorem wl1 : (V m c main_v64 : Cert.EdgeRow.Mat 133 64)
    = (m ((c : Thread nD τ).loc main_arg16)) := by
  dsimp only [V]
  simp only [hostOps0, hostOps0_1, hostOps0_2, hostOps0_3, hostOps0_4, List.flatten_cons, List.flatten_nil, List.append_nil,
    List.cons_append, List.nil_append]
  after_results_simp
  rfl

/-- %65, the head's second weights converted to bf16: the argument itself. -/
theorem wl2 : (V m c main_v65 : Cert.EdgeRow.Mat 64 1)
    = (m ((c : Thread nD τ).loc main_arg18)) := by
  dsimp only [V]
  simp only [hostOps0, hostOps0_1, hostOps0_2, hostOps0_3, hostOps0_4, List.flatten_cons, List.flatten_nil, List.append_nil,
    List.cons_append, List.nil_append]
  after_results_simp
  rfl

end Cert.HostPrefix

end
-- ==== Proof.lean ====
/-
  An edge network of a graph model, fused into one kernel, against the same network written with whole-array
  operations.

  Both programs first run two mean-aggregation layers over the nodes and gather, for each of the 1600000 edges, the
  rows of its source and destination nodes: the same operations in the same order, so the two gathered matrices are
  one function of the arguments in both programs. The kernel then walks the edges 2000 at a time and computes, for
  every edge, `Cert.EdgeRow.edgeOut` of its two node rows and its feature row: two small projections with `relu`,
  the join, a `tanh` layer and a logistic gate, the gated row through a `relu` layer, and a last product. The
  reference computes the same with products over all edges at once and the logistic spelt `1 / (1 + exp (-x))`.
  Over the extended reals a change of float format is the identity, a product into a zero accumulator is the plain
  sum over the contracted index, and the logistic function is that quotient by definition; every sum is taken in the
  same order on both sides, so no law of the extended reals is needed and the precondition is never opened.

  The modules: `EdgeRow` (one edge's value, and the result array `edgeArr`), `KernelRow` (the kernel body read row
  by row), `KernelBlocks` (each window's block read off its array), `KernelValue` (from the 800 blocks to the array:
  the kernel's run ends at `edgeArr`), `RefRow` (the
  reference's last stages read row by row: its result is `edgeArr`), `HostPrefix` (the arrays the kernel's region
  finds are the reference's stages at the same arguments). Here the five claims are assembled.
-/
import proofs.«130540_j68066641707575_1_alg».proof.Defs
import proofs.«130540_j68066641707575_1_alg».proof.Proof.Gen.Kernel
import proofs.«130540_j68066641707575_1_alg».proof.Proof.Gen.Kernel.Skeleton
import proofs.«130540_j68066641707575_1_alg».proof.Proof.Gen.Kernel.Launch
import proofs.«130540_j68066641707575_1_alg».proof.Proof.Gen.Kernel.Points
import proofs.«130540_j68066641707575_1_alg».proof.Proof.Gen.Kernel.Frame
import proofs.«130540_j68066641707575_1_alg».proof.Proof.Gen.KernelIdeal
import proofs.«130540_j68066641707575_1_alg».proof.Proof.Gen.KernelIdeal.Skeleton
import proofs.«130540_j68066641707575_1_alg».proof.Proof.Gen.KernelIdeal.Launch
import proofs.«130540_j68066641707575_1_alg».proof.Proof.Gen.KernelIdeal.Points
import proofs.«130540_j68066641707575_1_alg».proof.Proof.Gen.KernelIdeal.Frame
import proofs.«130540_j68066641707575_1_alg».proof.Proof.Gen.ReferenceIdeal
import proofs.«130540_j68066641707575_1_alg».proof.Proof.Gen.Pre_finite_inputs
import proofs.«130540_j68066641707575_1_alg».proof.Proof.Gen.KernelIdeal.Value
import proofs.«130540_j68066641707575_1_alg».proof.Proof.Gen.ReferenceIdeal.Run
import proofs.«130540_j68066641707575_1_alg».proof.Proof.Gen.ReferenceIdeal.Read
import proofs.«130540_j68066641707575_1_alg».proof.Proof.EdgeRow
import proofs.«130540_j68066641707575_1_alg».proof.Proof.KernelRow
import proofs.«130540_j68066641707575_1_alg».proof.Proof.KernelValue
import proofs.«130540_j68066641707575_1_alg».proof.Proof.RefRow
import proofs.«130540_j68066641707575_1_alg».proof.Proof.HostPrefix
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- `edgeArr` of equal weights and equal arrays. -/
theorem edgeArr_congr {Wnp Wnp' : Cert.EdgeRow.Mat 64 64} {bnp bnp' : Cert.EdgeRow.Row 64} {We1 We1' : Cert.EdgeRow.Mat 133 64}
    {be1 be1' : Cert.EdgeRow.Row 64} {We2 We2' : Cert.EdgeRow.Mat 64 1} {be2 be2' : Cert.EdgeRow.Row 1}
    {Wl1 Wl1' : Cert.EdgeRow.Mat 133 64} {bl1 bl1' : Cert.EdgeRow.Row 64} {Wl2 Wl2' : Cert.EdgeRow.Mat 64 1} {bl2 bl2' : Cert.EdgeRow.Row 1}
    {hs hs' hd hd' : Cert.EdgeRow.Mat 1600000 64} {ef ef' : Cert.EdgeRow.Mat 1600000 5}
    (h₁ : Wnp' = Wnp) (h₂ : bnp' = bnp) (h₃ : We1' = We1) (h₄ : be1' = be1) (h₅ : We2' = We2) (h₆ : be2' = be2)
    (h₇ : Wl1' = Wl1) (h₈ : bl1' = bl1) (h₉ : Wl2' = Wl2) (h₁₀ : bl2' = bl2) (h₁₁ : hs' = hs) (h₁₂ : hd' = hd) (h₁₃ : ef' = ef) :
    Cert.EdgeRow.edgeArr Wnp bnp We1 be1 We2 be2 Wl1 bl1 Wl2 bl2 hs hd ef
      = Cert.EdgeRow.edgeArr Wnp' bnp' We1' be1' We2' be2' Wl1' bl1' Wl2' bl2' hs' hd' ef' := by
  subst h₁ h₂ h₃ h₄ h₅ h₆ h₇ h₈ h₉ h₁₀ h₁₁ h₁₂ h₁₃
  rfl

/-- From memories that agree on the arguments both programs end with the result array at `edgeArr` of the same
    weights, the same two gathered matrices and the same edge features. -/
theorem algebraic : Cert.algebraic_KernelIdeal_ReferenceIdeal := by
  intro m ρ m' ρ' _ hagree
  refine ⟨fun c => Cert.KernelValue.outArr m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v97_eq, Cert.RefRow.ref_is_edgeArr,
    h0, h1, h2, h3, h4, h5, h6, h7, h8, h9, h10, h11, h12, h13, h14, h15, h16, h17, h18, h19]
  exact edgeArr_congr (Cert.HostPrefix.wnp m c) (Cert.KernelIdeal.Gen.V_main_arg11 m c) (Cert.HostPrefix.we1 m c)
    (Cert.KernelIdeal.Gen.V_main_arg13 m c) (Cert.HostPrefix.we2 m c) (Cert.KernelIdeal.Gen.V_main_arg15 m c) (Cert.HostPrefix.wl1 m c)
    (Cert.KernelIdeal.Gen.V_main_arg17 m c) (Cert.HostPrefix.wl2 m c) (Cert.KernelIdeal.Gen.V_main_arg19 m c)
    (Cert.HostPrefix.src_rows m c) (Cert.HostPrefix.dst_rows m c) (Cert.KernelIdeal.Gen.V_main_arg1 m c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
